-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024x8x8 : Shape := ⟨4, ![2048, 1024, 8, 8]⟩
abbrev S_ : Shape := ⟨0, ![]⟩

class Facts : Prop where
  bcast_S_S2048x1024x8x8 : S_.BroadcastsInDim S2048x1024x8x8 (![] : Fin 0 → Fin S2048x1024x8x8.rank)
  reducesTo_S2048x1024x8x8_S_d0_1_2_3 : S2048x1024x8x8.ReducesTo [0, 1, 2, 3] S_
  h_S_ : 0 < S_.numel

variable [Facts]

def fn {F : FTy → Type} [FloatOps F] (main_arg0 : FVec F S2048x1024x8x8 .f32) : IVec S_ 1 :=
  let main_v0 : FVec F S2048x1024x8x8 .f32 := Host.absf main_arg0
  let main_cst : FVec F S_ .f32 := constant S_ .f32 0x7F800000#32
  let main_v1 : FVec F S2048x1024x8x8 .f32 := broadcastInDim S2048x1024x8x8 ![] bcast_S_S2048x1024x8x8 main_cst
  let main_v2 : IVec S2048x1024x8x8 1 := cmpf .olt main_v0 main_v1
  let main_c : IVec S_ 1 := constantI S_ 1 1#1
  let main_v3 : IVec S_ 1 := (fun x v => Host.reduce IntOp.andi x v reducesTo_S2048x1024x8x8_S_d0_1_2_3 h_S_) main_v2 main_c
  main_v3
-- ==== Kernel.lean ====
abbrev S2048x1024x8x8 : Shape := ⟨4, ![2048, 1024, 8, 8]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S1048576x128 : Shape := ⟨2, ![1048576, 128]⟩
abbrev S4096x128 : Shape := ⟨2, ![4096, 128]⟩

abbrev nBuf : Space → Nat
  | .hbm => 79
  | .vmem => 6
  | .smem => 0
  | _ => 0

abbrev bufTy : (tb : Table) → Fin (tcTables nBuf tb) → BufTy
  | .hbm, ⟨0, _⟩ => ⟨S2048x1024x8x8, .f32⟩
  | .hbm, ⟨1, _⟩ => ⟨S128, .i32⟩
  | .hbm, ⟨2, _⟩ => ⟨S_, .i32⟩
  | .hbm, ⟨3, _⟩ => ⟨S_, .i32⟩
  | .hbm, ⟨4, _⟩ => ⟨S128, .i32⟩
  | .hbm, ⟨5, _⟩ => ⟨S128, .i32⟩
  | .hbm, ⟨6, _⟩ => ⟨S128, .i32⟩
  | .hbm, ⟨7, _⟩ => ⟨S_, .i32⟩
  | .hbm, ⟨8, _⟩ => ⟨S128, .i32⟩
  | .hbm, ⟨9, _⟩ => ⟨S128, .i1⟩
  | .hbm, ⟨10, _⟩ => ⟨S128, .i32⟩
  | .hbm, ⟨11, _⟩ => ⟨S128, .i32⟩
  | .hbm, ⟨12, _⟩ => ⟨S_, .i32⟩
  | .hbm, ⟨13, _⟩ => ⟨S128, .i32⟩
  | .hbm, ⟨14, _⟩ => ⟨S128, .i1⟩
  | .hbm, ⟨15, _⟩ => ⟨S128, .i1⟩
  | .hbm, ⟨16, _⟩ => ⟨S_, .i32⟩
  | .hbm, ⟨17, _⟩ => ⟨S128, .i32⟩
  | .hbm, ⟨18, _⟩ => ⟨S128, .i32⟩
  | .hbm, ⟨19, _⟩ => ⟨S128, .i32⟩
  | .hbm, ⟨20, _⟩ => ⟨S128x1, .i32⟩
  | .hbm, ⟨21, _⟩ => ⟨S1x128, .i32⟩
  | .hbm, ⟨22, _⟩ => ⟨S128x128, .i32⟩
  | .hbm, ⟨23, _⟩ => ⟨S128x128, .i32⟩
  | .hbm, ⟨24, _⟩ => ⟨S128x128, .i1⟩
  | .hbm, ⟨25, _⟩ => ⟨S128x128, .f32⟩
  | .hbm, ⟨26, _⟩ => ⟨S_, .i32⟩
  | .hbm, ⟨27, _⟩ => ⟨S_, .i32⟩
  | .hbm, ⟨28, _⟩ => ⟨S128, .i32⟩
  | .hbm, ⟨29, _⟩ => ⟨S128, .i32⟩
  | .hbm, ⟨30, _⟩ => ⟨S128, .i32⟩
  | .hbm, ⟨31, _⟩ => ⟨S_, .i32⟩
  | .hbm, ⟨32, _⟩ => ⟨S128, .i32⟩
  | .hbm, ⟨33, _⟩ => ⟨S128, .i1⟩
  | .hbm, ⟨34, _⟩ => ⟨S128, .i32⟩
  | .hbm, ⟨35, _⟩ => ⟨S128, .i32⟩
  | .hbm, ⟨36, _⟩ => ⟨S_, .i32⟩
  | .hbm, ⟨37, _⟩ => ⟨S128, .i32⟩
  | .hbm, ⟨38, _⟩ => ⟨S128, .i1⟩
  | .hbm, ⟨39, _⟩ => ⟨S128, .i1⟩
  | .hbm, ⟨40, _⟩ => ⟨S_, .i32⟩
  | .hbm, ⟨41, _⟩ => ⟨S128, .i32⟩
  | .hbm, ⟨42, _⟩ => ⟨S128, .i32⟩
  | .hbm, ⟨43, _⟩ => ⟨S128, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S128, .i32⟩
  | .hbm, ⟨51, _⟩ => ⟨S128, .i32⟩
  | .hbm, ⟨52, _⟩ => ⟨S_, .i32⟩
  | .hbm, ⟨53, _⟩ => ⟨S128, .i32⟩
  | .hbm, ⟨54, _⟩ => ⟨S128, .i1⟩
  | .hbm, ⟨55, _⟩ => ⟨S_, .i32⟩
  | .hbm, ⟨56, _⟩ => ⟨S128, .i32⟩
  | .hbm, ⟨57, _⟩ => ⟨S128, .i1⟩
  | .hbm, ⟨58, _⟩ => ⟨S_, .i32⟩
  | .hbm, ⟨59, _⟩ => ⟨S_, .i1⟩
  | .hbm, ⟨60, _⟩ => ⟨S128, .i1⟩
  | .hbm, ⟨61, _⟩ => ⟨S128, .i1⟩
  | .hbm, ⟨62, _⟩ => ⟨S128, .i1⟩
  | .hbm, ⟨63, _⟩ => ⟨S128, .i32⟩
  | .hbm, ⟨64, _⟩ => ⟨S128, .i32⟩
  | .hbm, ⟨65, _⟩ => ⟨S128, .i32⟩
  | .hbm, ⟨66, _⟩ => ⟨S_, .i32⟩
  | .hbm, ⟨67, _⟩ => ⟨S128, .i32⟩
  | .hbm, ⟨68, _⟩ => ⟨S128, .i32⟩
  | .hbm, ⟨69, _⟩ => ⟨S128, .i32⟩
  | .hbm, ⟨70, _⟩ => ⟨S128x1, .i32⟩
  | .hbm, ⟨71, _⟩ => ⟨S1x128, .i32⟩
  | .hbm, ⟨72, _⟩ => ⟨S128x128, .i32⟩
  | .hbm, ⟨73, _⟩ => ⟨S128x128, .i32⟩
  | .hbm, ⟨74, _⟩ => ⟨S128x128, .i1⟩
  | .hbm, ⟨75, _⟩ => ⟨S128x128, .f32⟩
  | .hbm, ⟨76, _⟩ => ⟨S1048576x128, .f32⟩
  | .hbm, ⟨77, _⟩ => ⟨S1048576x128, .f32⟩
  | .hbm, ⟨78, _⟩ => ⟨S2048x1024x8x8, .f32⟩
  | .local _ .vmem, ⟨0, _⟩ => ⟨S4096x128, .f32⟩
  | .local _ .vmem, ⟨1, _⟩ => ⟨S4096x128, .f32⟩
  | .local _ .vmem, ⟨2, _⟩ => ⟨S128x128, .f32⟩
  | .local _ .vmem, ⟨3, _⟩ => ⟨S128x128, .f32⟩
  | .local _ .vmem, ⟨4, _⟩ => ⟨S4096x128, .f32⟩
  | .local _ .vmem, ⟨5, _⟩ => ⟨S4096x128, .f32⟩
  | _, _ => ⟨S2048x1024x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_c : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_c_0 : Ref sig .tc := ⟨.hbm, 16, rfl⟩
abbrev main_call0_v12 : Ref sig .tc := ⟨.hbm, 17, rfl⟩
abbrev main_call0_v13 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_c : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_0 : Ref sig .tc := ⟨.hbm, 40, rfl⟩
abbrev main_call1_v12 : Ref sig .tc := ⟨.hbm, 41, rfl⟩
abbrev main_call1_v13 : Ref sig .tc := ⟨.hbm, 42, rfl⟩
abbrev main_v8 : Ref sig .tc := ⟨.hbm, 43, rfl⟩
abbrev main_c_1 : Ref sig .tc := ⟨.hbm, 44, rfl⟩
abbrev main_call2_v0 : Ref sig .tc := ⟨.hbm, 45, rfl⟩
abbrev main_call2_c : Ref sig .tc := ⟨.hbm, 46, rfl⟩
abbrev main_call2_v1 : Ref sig .tc := ⟨.hbm, 47, rfl⟩
abbrev main_call2_c_0 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_c_1 : Ref sig .tc := ⟨.hbm, 52, rfl⟩
abbrev main_call2_v5 : Ref sig .tc := ⟨.hbm, 53, rfl⟩
abbrev main_call2_v6 : Ref sig .tc := ⟨.hbm, 54, rfl⟩
abbrev main_call2_c_2 : Ref sig .tc := ⟨.hbm, 55, rfl⟩
abbrev main_call2_v7 : Ref sig .tc := ⟨.hbm, 56, rfl⟩
abbrev main_call2_v8 : Ref sig .tc := ⟨.hbm, 57, rfl⟩
abbrev main_call2_c_3 : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_v12 : Ref sig .tc := ⟨.hbm, 62, rfl⟩
abbrev main_call2_v13 : Ref sig .tc := ⟨.hbm, 63, rfl⟩
abbrev main_call2_v14 : Ref sig .tc := ⟨.hbm, 64, rfl⟩
abbrev main_v9 : Ref sig .tc := ⟨.hbm, 65, rfl⟩
abbrev main_c_2 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S128 : S_.BroadcastsInDim S128 (![] : Fin 0 → Fin S128.rank)
  bcast_S128_S128x1_0 : S128.BroadcastsInDim S128x1 (![0] : Fin 1 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  shapeCasts_S2048x1024x8x8_S1048576x128 : S2048x1024x8x8.ShapeCasts S1048576x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1048576x128_S2048x1024x8x8 : S1048576x128.ShapeCasts S2048x1024x8x8
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S1048576x128.size a
  hwx0_0 : ∀ i : grid0.Coords, EltTy.bits .f32 = 32 ∨ (Rect.block (s := S1048576x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S1048576x128.size a
  hwx0_3 : ∀ i : grid0.Coords, EltTy.bits .f32 = 32 ∨ (Rect.block (s := S1048576x128) S4096x128.size (cc0_transform_3 i) (hinb0_3 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v19) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x1024x8x8 : Shape := ⟨4, ![2048, 1024, 8, 8]⟩
abbrev S2097152x8x8 : Shape := ⟨3, ![2097152, 8, 8]⟩
abbrev S_ : Shape := ⟨0, ![]⟩
abbrev S2097152x8 : Shape := ⟨2, ![2097152, 8]⟩
abbrev S2097152x8x1 : Shape := ⟨3, ![2097152, 8, 1]⟩
abbrev S2097152x1x8 : Shape := ⟨3, ![2097152, 1, 8]⟩

abbrev nBuf : Space → Nat
  | .hbm => 54
  | .vmem => 0
  | .smem => 0
  | _ => 0

abbrev bufTy : (tb : Table) → Fin (tcTables nBuf tb) → BufTy
  | .hbm, ⟨0, _⟩ => ⟨S2048x1024x8x8, .f32⟩
  | .hbm, ⟨1, _⟩ => ⟨S2097152x8x8, .f32⟩
  | .hbm, ⟨2, _⟩ => ⟨S2097152x8x8, .f32⟩
  | .hbm, ⟨3, _⟩ => ⟨S_, .f32⟩
  | .hbm, ⟨4, _⟩ => ⟨S2097152x8, .f32⟩
  | .hbm, ⟨5, _⟩ => ⟨S2097152x8x1, .f32⟩
  | .hbm, ⟨6, _⟩ => ⟨S2097152x8x8, .f32⟩
  | .hbm, ⟨7, _⟩ => ⟨S2097152x8x8, .f32⟩
  | .hbm, ⟨8, _⟩ => ⟨S_, .f32⟩
  | .hbm, ⟨9, _⟩ => ⟨S2097152x8, .f32⟩
  | .hbm, ⟨10, _⟩ => ⟨S2097152x1x8, .f32⟩
  | .hbm, ⟨11, _⟩ => ⟨S2097152x8x8, .f32⟩
  | .hbm, ⟨12, _⟩ => ⟨S2097152x8x8, .f32⟩
  | .hbm, ⟨13, _⟩ => ⟨S_, .f32⟩
  | .hbm, ⟨14, _⟩ => ⟨S2097152x8, .f32⟩
  | .hbm, ⟨15, _⟩ => ⟨S2097152x8x1, .f32⟩
  | .hbm, ⟨16, _⟩ => ⟨S2097152x8x8, .f32⟩
  | .hbm, ⟨17, _⟩ => ⟨S2097152x8x8, .f32⟩
  | .hbm, ⟨18, _⟩ => ⟨S_, .f32⟩
  | .hbm, ⟨19, _⟩ => ⟨S2097152x8, .f32⟩
  | .hbm, ⟨20, _⟩ => ⟨S2097152x1x8, .f32⟩
  | .hbm, ⟨21, _⟩ => ⟨S2097152x8x8, .f32⟩
  | .hbm, ⟨22, _⟩ => ⟨S2097152x8x8, .f32⟩
  | .hbm, ⟨23, _⟩ => ⟨S_, .f32⟩
  | .hbm, ⟨24, _⟩ => ⟨S2097152x8, .f32⟩
  | .hbm, ⟨25, _⟩ => ⟨S2097152x8x1, .f32⟩
  | .hbm, ⟨26, _⟩ => ⟨S2097152x8x8, .f32⟩
  | .hbm, ⟨27, _⟩ => ⟨S2097152x8x8, .f32⟩
  | .hbm, ⟨28, _⟩ => ⟨S_, .f32⟩
  | .hbm, ⟨29, _⟩ => ⟨S2097152x8, .f32⟩
  | .hbm, ⟨30, _⟩ => ⟨S2097152x1x8, .f32⟩
  | .hbm, ⟨31, _⟩ => ⟨S2097152x8x8, .f32⟩
  | .hbm, ⟨32, _⟩ => ⟨S2097152x8x8, .f32⟩
  | .hbm, ⟨33, _⟩ => ⟨S_, .f32⟩
  | .hbm, ⟨34, _⟩ => ⟨S2097152x8, .f32⟩
  | .hbm, ⟨35, _⟩ => ⟨S2097152x8x1, .f32⟩
  | .hbm, ⟨36, _⟩ => ⟨S2097152x8x8, .f32⟩
  | .hbm, ⟨37, _⟩ => ⟨S2097152x8x8, .f32⟩
  | .hbm, ⟨38, _⟩ => ⟨S_, .f32⟩
  | .hbm, ⟨39, _⟩ => ⟨S2097152x8, .f32⟩
  | .hbm, ⟨40, _⟩ => ⟨S2097152x1x8, .f32⟩
  | .hbm, ⟨41, _⟩ => ⟨S2097152x8x8, .f32⟩
  | .hbm, ⟨42, _⟩ => ⟨S2097152x8x8, .f32⟩
  | .hbm, ⟨43, _⟩ => ⟨S_, .f32⟩
  | .hbm, ⟨44, _⟩ => ⟨S2097152x8, .f32⟩
  | .hbm, ⟨45, _⟩ => ⟨S2097152x8x1, .f32⟩
  | .hbm, ⟨46, _⟩ => ⟨S2097152x8x8, .f32⟩
  | .hbm, ⟨47, _⟩ => ⟨S2097152x8x8, .f32⟩
  | .hbm, ⟨48, _⟩ => ⟨S_, .f32⟩
  | .hbm, ⟨49, _⟩ => ⟨S2097152x8, .f32⟩
  | .hbm, ⟨50, _⟩ => ⟨S2097152x1x8, .f32⟩
  | .hbm, ⟨51, _⟩ => ⟨S2097152x8x8, .f32⟩
  | .hbm, ⟨52, _⟩ => ⟨S2097152x8x8, .f32⟩
  | .hbm, ⟨53, _⟩ => ⟨S2048x1024x8x8, .f32⟩
  | _, _ => ⟨S2048x1024x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_4 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_5 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_6 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_7 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_8 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]

class Facts₀ : Prop where
  shapeCasts_S2048x1024x8x8_S2097152x8x8 : S2048x1024x8x8.ShapeCasts S2097152x8x8
  reducesTo_S2097152x8x8_S2097152x8_d2 : S2097152x8x8.ReducesTo [2] S2097152x8
  h_S_ : 0 < S_.numel
  bcast_S2097152x8_S2097152x8x1_0_1 : S2097152x8.BroadcastsInDim S2097152x8x1 (![0, 1] : Fin 2 → Fin S2097152x8x1.rank)
  bcast_S2097152x8x1_S2097152x8x8_0_1_2 : S2097152x8x1.BroadcastsInDim S2097152x8x8 (![0, 1, 2] : Fin 3 → Fin S2097152x8x8.rank)
  reducesTo_S2097152x8x8_S2097152x8_d1 : S2097152x8x8.ReducesTo [1] S2097152x8
  bcast_S2097152x8_S2097152x1x8_0_2 : S2097152x8.BroadcastsInDim S2097152x1x8 (![0, 2] : Fin 2 → Fin S2097152x1x8.rank)
  bcast_S2097152x1x8_S2097152x8x8_0_1_2 : S2097152x1x8.BroadcastsInDim S2097152x8x8 (![0, 1, 2] : Fin 3 → Fin S2097152x8x8.rank)
  shapeCasts_S2097152x8x8_S2048x1024x8x8 : S2097152x8x8.ShapeCasts S2048x1024x8x8

variable [Facts₀]

class Facts : Prop extends Facts₀ where

variable [Facts]
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.Sinkhorn.lean ====
/-
  Sinkhorn normalisation of 8 × 8 matrices, in two layouts.

  A matrix is normalised by dividing every entry by the sum of its row, then every entry by the sum of its column, five
  times over, starting from the entrywise exponential. One layout keeps the matrix as it is: `rowNorm`, `colNorm`,
  `sinkhorn8`. The other packs two matrices into one row of 128 lanes, lane `64 h + 8 i + j` holding entry `(i, j)` of
  matrix `h`, and takes each sum as a product with a 0/1 matrix over the lanes: `sameRow k l` is one exactly when lanes `k`
  and `l` lie in the same row of the same matrix, `sameCol k l` exactly when they lie in the same column of the same matrix.
  On the extended reals `x * 1 = x` and `x * 0 = 0` for every `x`, the infinities included, so the product with such a
  matrix is the sum over the selected lanes and nothing else: no finiteness is needed. Hence the packed normalisation, read
  through either half of the lane row, is the plain one (`half_sinkhorn128`).
-/
import Idealize.ShloMosaic.PureOps.Ideal

noncomputable section

namespace Cert.Sinkhorn

open Idealize.ShloMosaic

/-! ## The two layouts -/

/-- One normalisation of a lane row: each lane divided by the sum of the lanes the 0/1 matrix `B` selects for it. -/
def normBy (B : Fin 128 → Fin 128 → EReal) (v : Fin 128 → EReal) : Fin 128 → EReal :=
  fun l => Ideal.div (v l) (∑ k, v k * B k l)

/-- Five rounds of row then column normalisation of a lane row, from its exponential, the sums taken by `Br` and `Bc`. -/
def sinkhorn128 (Br Bc : Fin 128 → Fin 128 → EReal) (v : Fin 128 → EReal) : Fin 128 → EReal :=
  (fun w => normBy Bc (normBy Br w))^[5] (fun k => Ideal.exp (v k))

/-- Lanes `k` and `l` lie in the same row of the same matrix: one, else zero. -/
def sameRow (k l : Fin 128) : EReal := if k.val / 8 = l.val / 8 then 1 else 0

/-- Lanes `k` and `l` lie in the same column of the same matrix: one, else zero. -/
def sameCol (k l : Fin 128) : EReal := if k.val / 64 = l.val / 64 ∧ k.val % 8 = l.val % 8 then 1 else 0

/-- Every entry divided by the sum of its row. -/
def rowNorm (M : Fin 8 → Fin 8 → EReal) : Fin 8 → Fin 8 → EReal := fun i j => Ideal.div (M i j) (∑ j', M i j')

/-- Every entry divided by the sum of its column. -/
def colNorm (M : Fin 8 → Fin 8 → EReal) : Fin 8 → Fin 8 → EReal := fun i j => Ideal.div (M i j) (∑ i', M i' j)

/-- Five rounds of row then column normalisation of a matrix, from its exponential. -/
def sinkhorn8 (M : Fin 8 → Fin 8 → EReal) : Fin 8 → Fin 8 → EReal :=
  (fun A => colNorm (rowNorm A))^[5] (fun i j => Ideal.exp (M i j))

/-- The lane that holds entry `(i, j)` of matrix `h`. -/
def lane (h : Fin 2) (i j : Fin 8) : Fin 128 := ⟨64 * h.val + 8 * i.val + j.val, by omega⟩

theorem lane_val (h : Fin 2) (i j : Fin 8) : (lane h i j).val = 64 * h.val + 8 * i.val + j.val := rfl

/-- Matrix `h` of a lane row. -/
def half (v : Fin 128 → EReal) (h : Fin 2) : Fin 8 → Fin 8 → EReal := fun i j => v (lane h i j)

/-! ## A product with a 0/1 matrix is a sum over the selected lanes -/

/-- The sum of `v k` times the indicator of a set of lanes that an injective map `g` enumerates is the sum of `v` along `g`. -/
theorem sum_mul_indicator {κ : Type} [Fintype κ] (v : Fin 128 → EReal) (P : Fin 128 → Prop) [DecidablePred P]
    (g : κ → Fin 128) (hg : Function.Injective g) (hP : ∀ k, P k ↔ ∃ a, g a = k) :
    ∑ k, v k * (if P k then (1 : EReal) else 0) = ∑ a, v (g a) := by
  classical
  have h1 : ∀ k, v k * (if P k then (1 : EReal) else 0) = if P k then v k else 0 := fun k => by
    by_cases hk : P k
    · rw [if_pos hk, if_pos hk, mul_one]
    · rw [if_neg hk, if_neg hk, mul_zero]
  rw [Finset.sum_congr rfl fun k _ => h1 k, ← Finset.sum_filter]
  have h2 : Finset.univ.filter P = Finset.univ.image g := by
    ext k
    simp only [Finset.mem_filter, Finset.mem_univ, true_and, Finset.mem_image]
    exact hP k
  rw [h2, Finset.sum_image fun a _ b _ h => hg h]

theorem lane_injective_right (h : Fin 2) (i : Fin 8) : Function.Injective fun j => lane h i j := fun a b hab => by
  have := congrArg Fin.val hab
  simp only [lane_val] at this
  exact Fin.ext (by omega)

theorem lane_injective_mid (h : Fin 2) (j : Fin 8) : Function.Injective fun i => lane h i j := fun a b hab => by
  have := congrArg Fin.val hab
  simp only [lane_val] at this
  exact Fin.ext (by omega)

/-- Against `sameRow`, at the lane of entry `(i, j)` of matrix `h`: the sum of row `i` of that matrix. -/
theorem sum_sameRow (v : Fin 128 → EReal) (h : Fin 2) (i j : Fin 8) :
    ∑ k, v k * sameRow k (lane h i j) = ∑ j', v (lane h i j') := by
  unfold sameRow
  refine sum_mul_indicator v _ (fun j' => lane h i j') (lane_injective_right h i) fun k => ?_
  have hh := h.isLt; have hi := i.isLt; have hj := j.isLt; have hk := k.isLt
  rw [lane_val]
  constructor
  · intro e
    exact ⟨⟨k.val % 8, Nat.mod_lt _ (by norm_num)⟩, Fin.ext (by rw [lane_val]; show 64 * h.val + 8 * i.val + k.val % 8 = k.val; omega)⟩
  · rintro ⟨a, rfl⟩
    have ha := a.isLt
    rw [lane_val]; omega

/-- Against `sameCol`, at the lane of entry `(i, j)` of matrix `h`: the sum of column `j` of that matrix. -/
theorem sum_sameCol (v : Fin 128 → EReal) (h : Fin 2) (i j : Fin 8) :
    ∑ k, v k * sameCol k (lane h i j) = ∑ i', v (lane h i' j) := by
  unfold sameCol
  refine sum_mul_indicator v _ (fun i' => lane h i' j) (lane_injective_mid h j) fun k => ?_
  have hh := h.isLt; have hi := i.isLt; have hj := j.isLt; have hk := k.isLt
  rw [lane_val]
  constructor
  · rintro ⟨e1, e2⟩
    exact ⟨⟨k.val % 64 / 8, by omega⟩, Fin.ext (by rw [lane_val]; show 64 * h.val + 8 * (k.val % 64 / 8) + j.val = k.val; omega)⟩
  · rintro ⟨a, rfl⟩
    have ha := a.isLt
    rw [lane_val]; omega

/-! ## The packed normalisation, read through a half, is the plain one -/

theorem half_normBy_sameRow (v : Fin 128 → EReal) (h : Fin 2) : half (normBy sameRow v) h = rowNorm (half v h) := by
  funext i j
  show Ideal.div (v (lane h i j)) (∑ k, v k * sameRow k (lane h i j)) = Ideal.div (v (lane h i j)) (∑ j', v (lane h i j'))
  rw [sum_sameRow]

theorem half_normBy_sameCol (v : Fin 128 → EReal) (h : Fin 2) : half (normBy sameCol v) h = colNorm (half v h) := by
  funext i j
  show Ideal.div (v (lane h i j)) (∑ k, v k * sameCol k (lane h i j)) = Ideal.div (v (lane h i j)) (∑ i', v (lane h i' j))
  rw [sum_sameCol]

/-- Five packed rounds, read through half `h`, are five plain rounds of matrix `h`. -/
theorem half_sinkhorn128 (v : Fin 128 → EReal) (h : Fin 2) : half (sinkhorn128 sameRow sameCol v) h = sinkhorn8 (half v h) := by
  have hs : Function.Semiconj (fun w => half w h) (fun w => normBy sameCol (normBy sameRow w)) (fun A => colNorm (rowNorm A)) :=
    fun w => by show half (normBy sameCol (normBy sameRow w)) h = _; rw [half_normBy_sameCol, half_normBy_sameRow]
  exact (hs.iterate_right 5) fun k => Ideal.exp (v k)

end Cert.Sinkhorn

end
-- ==== Proof.Body.lean ====
/-
  The kernel body, one row of its block at a time.

  The body takes a 4096 × 128 block `X`, exponentiates it, and ten times over divides the running block by its product
  with a 128 × 128 matrix (into a zero accumulator), alternating between two matrices. Entry `(p, l)` of such a product
  is the sum over `k` of `X (p, k)` times the matrix at `(k, l)`: it depends on row `p` of `X` alone. So row `p` of what
  the body stores is the packed Sinkhorn normalisation (`Cert.Sinkhorn.sinkhorn128`) of row `p` of the block it loads,
  whatever the two matrices hold.
-/
import proofs.«128730_j84765474554153_1_alg».proof.Proof.Gen.KernelIdeal.Skeleton
import proofs.«128730_j84765474554153_1_alg».proof.Proof.LibDot
import proofs.«128730_j84765474554153_1_alg».proof.Proof.Sinkhorn
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx Cert.Sinkhorn

/-- Row `p` of a block, as a lane row. -/
def rowOf (X : FVec Ideal S4096x128 .f32) (p : Fin 4096) : Fin 128 → EReal := fun k => X (ix2 p k)

/-- A 128 × 128 array as a matrix over the lanes. -/
def matOf (B : FVec Ideal S128x128 .f32) : Fin 128 → Fin 128 → EReal := fun k l => B (ix2 k l)

/-- The body's product is the plain rows-by-columns one. -/
theorem dot_eq_plain : dot_S4096x128_S128x128_S4096x128_1_0_0_1_n_n = DotDims.plain 4096 128 128 := rfl

/-- The block's product with a matrix, into the zero accumulator. -/
def mm (X : FVec Ideal S4096x128 .f32) (B : FVec Ideal S128x128 .f32) : FVec Ideal S4096x128 .f32 :=
  matmul dot_S4096x128_S128x128_S4096x128_1_0_0_1_n_n (some .fp32) X B (constant S4096x128 .f32 0x00000000#32)

/-- One round on the block: divide by the product with `B1`, then the result by its product with `B2`. -/
def round (B1 B2 : FVec Ideal S128x128 .f32) (X : FVec Ideal S4096x128 .f32) : FVec Ideal S4096x128 .f32 :=
  divf (divf X (mm X B1)) (mm (divf X (mm X B1)) B2)

/-- Row `p` of a block divided by its product with `B` is the normalisation of row `p` by `B`. -/
theorem rowOf_divf_mm (X : FVec Ideal S4096x128 .f32) (B : FVec Ideal S128x128 .f32) (p : Fin 4096) :
    rowOf (divf X (mm X B)) p = normBy (matOf B) (rowOf X p) := by
  funext l
  show Ideal.div (X (ix2 p l)) (mm X B (ix2 p l)) = Ideal.div (X (ix2 p l)) (∑ k, X (ix2 p k) * B (ix2 k l))
  refine congrArg (Ideal.div (X (ix2 p l))) ?_
  unfold mm
  rw [dot_eq_plain]
  exact Cert.GNN.matmul_plain_zero_apply (M := 4096) (K := 128) (N := 128) (some .fp32) X B p l

/-- Row `p` after one round is one packed round of row `p`. -/
theorem rowOf_round (B1 B2 : FVec Ideal S128x128 .f32) (X : FVec Ideal S4096x128 .f32) (p : Fin 4096) :
    rowOf (round B1 B2 X) p = normBy (matOf B2) (normBy (matOf B1) (rowOf X p)) := by
  unfold round
  rw [rowOf_divf_mm, rowOf_divf_mm]

/-- The body's stored value is five rounds from the exponential of the loaded block (the three loaded values pass
    through a cast to their own shape). -/
theorem pay_eq_rounds (x0 : Vec Ideal S4096x128 .f32) (x1 x2 : Vec Ideal S128x128 .f32) :
    k0_pay1 (F := Ideal) x0 x1 x2
      = (round (shapeCast S128x128 x1 shapeCasts_S128x128_S128x128) (shapeCast S128x128 x2 shapeCasts_S128x128_S128x128))^[5]
          (exp (shapeCast S4096x128 x0 shapeCasts_S4096x128_S4096x128)) := rfl

/-- Row `p` of what the body stores: the packed Sinkhorn normalisation of row `p` of the loaded block, the sums taken
    by the two loaded matrices. -/
theorem rowOf_pay (x0 : Vec Ideal S4096x128 .f32) (x1 x2 : Vec Ideal S128x128 .f32) (p : Fin 4096) :
    rowOf (k0_pay1 (F := Ideal) x0 x1 x2) p = sinkhorn128 (matOf x1) (matOf x2) (rowOf x0 p) := by
  rw [pay_eq_rounds, shapeCast_self, shapeCast_self, shapeCast_self]
  have hs : Function.Semiconj (fun X => rowOf X p) (round x1 x2) (fun w => normBy (matOf x2) (normBy (matOf x1) w)) :=
    fun X => rowOf_round x1 x2 X p
  exact (hs.iterate_right 5) (exp x0)

end Cert.KernelIdeal.Body

end
-- ==== Proof.Masks.lean ====
/-
  What the region finds in its three input arrays.

  Before the region @main computes, from the lane numbers 0 … 127 alone, two 128 × 128 arrays of zeros and ones, and
  re-lays the argument as 1048576 rows of 128 lanes. The first array compares the lanes' floor quotients by 8: it is one
  exactly where two lanes lie in the same row of the same 8 × 8 matrix (`Cert.Sinkhorn.sameRow`). The second compares
  `8 * (lane / 64) + lane % 8`: one exactly where two lanes lie in the same column of the same matrix
  (`Cert.Sinkhorn.sameCol`). The quotient and the remainder are jnp's floor forms, spelt out in signed word arithmetic
  with their sign corrections; on the 128 lane numbers they are the natural-number quotient and remainder, which is
  checked lane by lane.
-/
import proofs.«128730_j84765474554153_1_alg».proof.Proof.Gen.KernelIdeal.Frame
import proofs.«128730_j84765474554153_1_alg».proof.Proof.Sinkhorn
import Idealize.ShloMosaic.Lib.Pipeline.Value
import Idealize.ShloMosaic.Lib.ValueIdx
import Idealize.ShloMosaic.Lib.StableHlo.Run

noncomputable section

namespace Cert.KernelIdeal.Masks

open Cert.KernelIdeal Cert.KernelIdeal.Gen Idealize.ShloMosaic Idealize.ShloMosaic.TcCoe Idealize.ShloMosaic.ValueIdx
open Idealize.ShloMosaic.StableHlo Idealize.SL.Sem Cert.Sinkhorn

/-! ## The words -/

/-- The lane numbers. -/
def lanes : IVec S128 32 := iotaInDim S128 32 0

/-- One word on every lane. -/
def splat (c : IVec S_ 32) : IVec S128 32 := broadcastInDim S128 ![] bcast_S_S128 c

/-- jnp's floor quotient of the lane numbers by the word `c`: the truncated quotient, less one where the signs differ
    and the remainder is not zero. -/
def floorDiv (c : BitVec 32) : IVec S128 32 :=
  select
    (andi (cmpi .ne (signi lanes) (splat (signi (constantI S_ 32 c))))
      (cmpi .ne (Host.remsi lanes (splat (constantI S_ 32 c))) (splat (constantI S_ 32 0#32))))
    (subi (Host.divsi lanes (splat (constantI S_ 32 c))) (splat (constantI S_ 32 1#32)))
    (Host.divsi lanes (splat (constantI S_ 32 c)))

/-- The divisor jnp's remainder really divides by: one in place of zero. -/
def safeDivisor (c : BitVec 32) : IVec S_ 32 :=
  select (cmpi .eq (constantI S_ 32 c) (constantI S_ 32 0#32)) (constantI S_ 32 1#32) (constantI S_ 32 c)

/-- jnp's floor remainder of the lane numbers by the word `c`: the truncated remainder, plus the divisor where it is not
    zero and its sign differs from the divisor's. -/
def floorRem (c : BitVec 32) : IVec S128 32 :=
  select
    (andi
      (cmpi .ne (cmpi .slt (Host.remsi lanes (splat (safeDivisor c))) (splat (constantI S_ 32 0#32)))
        (broadcastInDim S128 ![] bcast_S_S128 (cmpi .slt (safeDivisor c) (constantI S_ 32 0#32))))
      (cmpi .ne (Host.remsi lanes (splat (safeDivisor c))) (splat (constantI S_ 32 0#32))))
    (addi (Host.remsi lanes (splat (safeDivisor c))) (splat (safeDivisor c)))
    (Host.remsi lanes (splat (safeDivisor c)))

/-- The row label of a lane: its floor quotient by 8. -/
def rowLabel : IVec S128 32 := floorDiv 8#32

/-- The column label of a lane: eight times its floor quotient by 64, plus its floor remainder by 8. -/
def colLabel : IVec S128 32 := addi (muli (floorDiv 64#32) (splat (constantI S_ 32 8#32))) (floorRem 8#32)

/-- The 128 × 128 array that is one where two lanes carry the same label, zero elsewhere. -/
def sameLabel (G : IVec S128 32) : FVec Ideal S128x128 .f32 :=
  uitofp (F := Ideal) .f32
    (cmpi .eq
      (broadcastInDim S128x128 ![0, 1] bcast_S128x1_S128x128_0_1 (broadcastInDim S128x1 ![0] bcast_S128_S128x1_0 G))
      (broadcastInDim S128x128 ![0, 1] bcast_S1x128_S128x128_0_1 (broadcastInDim S1x128 ![1] bcast_S128_S1x128_1 G)))

/-! ## The labels, lane by lane -/

theorem rowLabel_apply : ∀ k : Fin 128, rowLabel (ix1 k) = BitVec.ofNat 32 (k.val / 8) := by decide +kernel

theorem colLabel_apply : ∀ k : Fin 128, colLabel (ix1 k) = BitVec.ofNat 32 (8 * (k.val / 64) + k.val % 8) := by decide +kernel

/-! ## One where the labels agree -/

theorem sameLabel_apply (G : IVec S128 32) (k l : Fin 128) :
    sameLabel G (ix2 k l) = if G (ix1 k) = G (ix1 l) then 1 else 0 := by
  have ea : broadcastInDim S128x128 ![0, 1] bcast_S128x1_S128x128_0_1 (broadcastInDim S128x1 ![0] bcast_S128_S128x1_0 G) (ix2 k l)
      = G (ix1 k) := by
    refine (broadcastInDim_apply _ _ _ (ix2 k l) (ix2 k (0 : Fin 1)) fun a => ?_).trans ?_
    · match a with
      | ⟨0, _⟩ => rfl
      | ⟨1, _⟩ => rfl
    · refine broadcastInDim_apply _ _ _ (ix2 k (0 : Fin 1)) (ix1 k) fun a => ?_
      match a with
      | ⟨0, _⟩ => rfl
  have eb : broadcastInDim S128x128 ![0, 1] bcast_S1x128_S128x128_0_1 (broadcastInDim S1x128 ![1] bcast_S128_S1x128_1 G) (ix2 k l)
      = G (ix1 l) := by
    refine (broadcastInDim_apply _ _ _ (ix2 k l) (ix2 (0 : Fin 1) l) fun a => ?_).trans ?_
    · match a with
      | ⟨0, _⟩ => rfl
      | ⟨1, _⟩ => rfl
    · refine broadcastInDim_apply _ _ _ (ix2 (0 : Fin 1) l) (ix1 l) fun a => ?_
      match a with
      | ⟨0, _⟩ => rfl
  show FloatOps.uitofp (F := Ideal) .f32 (IntOp.cmpi .eq
      (broadcastInDim S128x128 ![0, 1] bcast_S128x1_S128x128_0_1 (broadcastInDim S128x1 ![0] bcast_S128_S128x1_0 G) (ix2 k l))
      (broadcastInDim S128x128 ![0, 1] bcast_S1x128_S128x128_0_1 (broadcastInDim S1x128 ![1] bcast_S128_S1x128_1 G) (ix2 k l))) = _
  rw [ea, eb]
  by_cases h : G (ix1 k) = G (ix1 l)
  · rw [if_pos h, h]
    show (((IntOp.cmpi .eq (G (ix1 l)) (G (ix1 l))).toNat : ℝ) : EReal) = 1
    simp [IntOp.cmpi]
  · rw [if_neg h]
    show (((IntOp.cmpi .eq (G (ix1 k)) (G (ix1 l))).toNat : ℝ) : EReal) = 0
    simp [IntOp.cmpi, h]

/-- Two lanes carry the same row label exactly when they lie in the same row of the same matrix. -/
theorem sameLabel_rowLabel (k l : Fin 128) : sameLabel rowLabel (ix2 k l) = sameRow k l := by
  rw [sameLabel_apply, rowLabel_apply, rowLabel_apply]
  unfold sameRow
  have hk := k.isLt; have hl := l.isLt
  refine if_congr ⟨fun e => ?_, fun e => by rw [e]⟩ rfl rfl
  have := congrArg BitVec.toNat e
  simp only [BitVec.toNat_ofNat] at this
  omega

/-- Two lanes carry the same column label exactly when they lie in the same column of the same matrix. -/
theorem sameLabel_colLabel (k l : Fin 128) : sameLabel colLabel (ix2 k l) = sameCol k l := by
  rw [sameLabel_apply, colLabel_apply, colLabel_apply]
  unfold sameCol
  have hk := k.isLt; have hl := l.isLt
  refine if_congr ⟨fun e => ?_, fun e => by rw [e.1, e.2]⟩ rfl rfl
  have := congrArg BitVec.toNat e
  simp only [BitVec.toNat_ofNat] at this
  omega

/-! ## The arrays as the region finds them -/

variable (m : (ℓ : Loc nD τ sig) → Buf (Elt Ideal) ℓ)

/-- The first matrix the region stages is the row-label comparison. -/
theorem V_rowMask (c : Dev nD) : (V m c main_v7 : FVec Ideal S128x128 .f32) = sameLabel rowLabel := by
  dsimp only [V, V0]
  simp only [hostOps0, hostOps0_1, hostOps0_2, hostOps0_3, hostOps0_4, hostOps0_5, hostOps0_6, List.flatten_cons, List.flatten_nil,
    List.append_nil, List.cons_append, List.nil_append]
  after_results_simp
  rfl

/-- The second matrix the region stages is the column-label comparison. -/
theorem V_colMask (c : Dev nD) : (V m c main_v18 : FVec Ideal S128x128 .f32) = sameLabel colLabel := by
  dsimp only [V, V0]
  simp only [hostOps0, hostOps0_1, hostOps0_2, hostOps0_3, hostOps0_4, hostOps0_5, hostOps0_6, List.flatten_cons, List.flatten_nil,
    List.append_nil, List.cons_append, List.nil_append]
  after_results_simp
  rfl

/-- The array the region stages block by block is the argument re-laid as rows of 128 lanes. -/
theorem V_packed (c : Dev nD) :
    (V m c main_v19 : FVec Ideal S1048576x128 .f32)
      = shapeCast S1048576x128 (m ((c : Thread nD τ).loc main_arg0) : FVec Ideal S2048x1024x8x8 .f32) shapeCasts_S2048x1024x8x8_S1048576x128 := by
  dsimp only [V, V0]
  simp only [hostOps0, hostOps0_1, hostOps0_2, hostOps0_3, hostOps0_4, hostOps0_5, hostOps0_6, List.flatten_cons, List.flatten_nil,
    List.append_nil, List.cons_append, List.nil_append]
  after_results_simp
  rfl

end Cert.KernelIdeal.Masks

end
-- ==== Proof.Packing.lean ====
/-
  Two ways of laying out 2097152 matrices of 8 × 8, and one normalisation.

  The same 134217728 numbers, in row-major order, are rows of 128 lanes (1048576 of them, two matrices to a row) or
  matrices of 8 × 8. Entry `(i, j)` of matrix `b` sits at row `b / 2`, lane `64 (b % 2) + 8 i + j`. So normalising every
  lane row by the packed Sinkhorn normalisation is normalising every matrix by the plain one: the two arrays of results
  are re-layings of each other (`packed_eq`), because a lane row read through one of its halves is one matrix
  (`Cert.Sinkhorn.half_sinkhorn128`). A re-laying of a re-laying is the re-laying (`shapeCast_shapeCast'`).
-/
import proofs.«128730_j84765474554153_1_alg».proof.Proof.Sinkhorn
import Idealize.ShloMosaic.Lib.Pipeline.Value
import Idealize.ShloMosaic.Lib.ValueIdx

noncomputable section

namespace Cert.Sinkhorn

open Idealize.ShloMosaic Idealize.ShloMosaic.ValueIdx

/-- Rows of lanes. -/
abbrev Rows : Shape := ⟨2, ![1048576, 128]⟩
/-- Matrices. -/
abbrev Mats : Shape := ⟨3, ![2097152, 8, 8]⟩

/-- A re-laying of a re-laying is the re-laying. -/
theorem shapeCast_shapeCast' {s t u : Shape} {α : Type} (x : s.Idx → α) (h1 : s.ShapeCasts t) (h2 : t.ShapeCasts u)
    (h3 : s.ShapeCasts u) : shapeCast u (shapeCast t x h1) h2 = shapeCast u x h3 :=
  funext fun i => congrArg x (Shape.reshapeEquiv_reshapeEquiv h1 h2 i)

/-- Every lane row of an array normalised by the packed Sinkhorn normalisation. -/
def packedSinkhorn (X : Rows.Idx → EReal) : Rows.Idx → EReal :=
  fun J => sinkhorn128 sameRow sameCol (fun k => X (ix2 (J 0) k)) (J 1)

theorem packedSinkhorn_apply (X : Rows.Idx → EReal) (r : Fin 1048576) (l : Fin 128) :
    packedSinkhorn X (ix2 r l) = sinkhorn128 sameRow sameCol (fun k => X (ix2 r k)) l := rfl

/-- A lane is the lane of its own half, row and column. -/
theorem lane_of (l : Fin 128) :
    l = lane ⟨l.val / 64, by have := l.isLt; omega⟩ ⟨l.val / 8 % 8, Nat.mod_lt _ (by norm_num)⟩ ⟨l.val % 8, Nat.mod_lt _ (by norm_num)⟩ :=
  Fin.ext (by rw [lane_val]; show l.val = 64 * (l.val / 64) + 8 * (l.val / 8 % 8) + l.val % 8; omega)

/-- An array of matrices normalised matrix by matrix, by ANY operation `R` that normalises each matrix by the plain
    Sinkhorn normalisation, re-laid as rows of lanes, is the packed normalisation of the re-laid array. -/
theorem packed_eq (R : (Mats.Idx → EReal) → Mats.Idx → EReal)
    (hR : ∀ (Y : Mats.Idx → EReal) (b : Fin 2097152) (i j : Fin 8), R Y (ix3 b i j) = sinkhorn8 (fun i' j' => Y (ix3 b i' j')) i j)
    (X : Rows.Idx → EReal) (h23 : Rows.ShapeCasts Mats) (h32 : Mats.ShapeCasts Rows) :
    packedSinkhorn X = shapeCast Rows (R (shapeCast Mats X h23)) h32 := by
  funext J
  obtain ⟨r, l, rfl⟩ : ∃ (r : Fin 1048576) (l : Fin 128), J = ix2 r l := ⟨J 0, J 1, eq_ix2 J⟩
  have hr := r.isLt; have hl := l.isLt
  -- the half, row and column of the lane, and the matrix it belongs to
  let h : Fin 2 := ⟨l.val / 64, by omega⟩
  let i : Fin 8 := ⟨l.val / 8 % 8, Nat.mod_lt _ (by norm_num)⟩
  let j : Fin 8 := ⟨l.val % 8, Nat.mod_lt _ (by norm_num)⟩
  let b : Fin 2097152 := ⟨2 * r.val + l.val / 64, by omega⟩
  have hb : ∀ i' j' : Fin 8, shapeCast Mats X h23 (ix3 b i' j') = X (ix2 r (lane h i' j')) := fun i' j' => by
    have hi' := i'.isLt; have hj' := j'.isLt
    refine shapeCast_apply X h23 (ix3 b i' j') (ix2 r (lane h i' j')) ?_
    rw [Shape.rowMajor_val_two, Shape.rowMajor_val_three]
    show r.val * 128 + (64 * (l.val / 64) + 8 * i'.val + j'.val) = ((2 * r.val + l.val / 64) * 8 + i'.val) * 8 + j'.val
    omega
  have e1 : shapeCast Rows (R (shapeCast Mats X h23)) h32 (ix2 r l) = R (shapeCast Mats X h23) (ix3 b i j) := by
    refine shapeCast_apply _ h32 (ix2 r l) (ix3 b i j) ?_
    rw [Shape.rowMajor_val_two, Shape.rowMajor_val_three]
    show ((2 * r.val + l.val / 64) * 8 + l.val / 8 % 8) * 8 + l.val % 8 = r.val * 128 + l.val
    omega
  rw [e1, hR, packedSinkhorn_apply]
  have e2 : (fun i' j' => shapeCast Mats X h23 (ix3 b i' j')) = half (fun k => X (ix2 r k)) h :=
    funext fun i' => funext fun j' => hb i' j'
  rw [e2, ← half_sinkhorn128]
  show sinkhorn128 sameRow sameCol (fun k => X (ix2 r k)) l = sinkhorn128 sameRow sameCol (fun k => X (ix2 r k)) (lane h i j)
  exact congrArg _ (lane_of l)

end Cert.Sinkhorn

end
-- ==== Proof.KernelValue.lean ====
/-
  What the kernel's program leaves in its result.

  The region writes its output array block by block: point `t` of the 256 writes rows `4096 t … 4096 t + 4095`, each row the
  packed Sinkhorn normalisation of the same row of the staged input, the sums taken by the two staged matrices, which are
  the same-row and the same-column matrices. The blocks tile the array, so after the region the array is the packed
  normalisation of the re-laid argument, row by row; the one host line after the region lays it back in the argument's shape.
-/
import proofs.«128730_j84765474554153_1_alg».proof.Proof.Gen.KernelIdeal.Frame
import proofs.«128730_j84765474554153_1_alg».proof.Proof.Body
import proofs.«128730_j84765474554153_1_alg».proof.Proof.Masks
import proofs.«128730_j84765474554153_1_alg».proof.Proof.Packing
import Idealize.ShloMosaic.Lib.Pipeline.Value
import Idealize.ShloMosaic.Lib.StableHlo.Run

noncomputable section

namespace Cert.KernelIdeal.KValue

open Cert.KernelIdeal Cert.KernelIdeal.Gen Idealize.ShloMosaic Idealize.ShloMosaic.TcCoe Idealize.ShloMosaic.ValueIdx Idealize.SL.Sem
open Idealize.ShloMosaic.Pipeline (Dat)
open Cert.Sinkhorn Cert.KernelIdeal.Body Cert.KernelIdeal.Masks

/-! ## One point's block, over plain arrays -/

/-- If a 4096-row block `x0` is rows `4096 T …` of an array `X`, and the two matrices are the same-row and same-column
    ones, then the body's stored value at `y` is the packed normalisation of `X` at the array index under `y`. -/
theorem pay_at (x0 : Vec Ideal S4096x128 .f32) (x1 x2 : Vec Ideal S128x128 .f32) (X : FVec Ideal S1048576x128 .f32) (T : Nat)
    (h0 : ∀ (y : S4096x128.Idx) (J : S1048576x128.Idx), (J 0).val = T * 4096 + (y 0).val → (J 1).val = (y 1).val → x0 y = X J)
    (h1 : ∀ k l : Fin 128, x1 (ix2 k l) = sameRow k l) (h2 : ∀ k l : Fin 128, x2 (ix2 k l) = sameCol k l)
    (y : S4096x128.Idx) (J : S1048576x128.Idx) (hJ0 : (J 0).val = T * 4096 + (y 0).val) (hJ1 : (J 1).val = (y 1).val) :
    k0_pay1 (F := Ideal) x0 x1 x2 y = packedSinkhorn X J := by
  obtain ⟨p, q, rfl⟩ : ∃ (p : Fin 4096) (q : Fin 128), y = ix2 p q := ⟨y 0, y 1, eq_ix2 y⟩
  obtain ⟨r, l, rfl⟩ : ∃ (r : Fin 1048576) (l : Fin 128), J = ix2 r l := ⟨J 0, J 1, eq_ix2 J⟩
  have hl : l = q := Fin.ext hJ1
  subst hl
  have e0 : rowOf x0 p = fun k => X (ix2 r k) := funext fun k => h0 (ix2 p k) (ix2 r k) hJ0 rfl
  have e1 : matOf x1 = sameRow := funext fun k => funext fun l' => h1 k l'
  have e2 : matOf x2 = sameCol := funext fun k => funext fun l' => h2 k l'
  have hrow : ∀ Z : FVec Ideal S4096x128 .f32, Z (ix2 p l) = rowOf Z p l := fun _ => rfl
  rw [hrow (k0_pay1 (F := Ideal) x0 x1 x2), rowOf_pay, e0, e1, e2, packedSinkhorn_apply]

/-! ## The windows' blocks -/

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the grid: the two row-blocked windows sit at block `t`, the two matrices at block 0. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point `t`'s block of the staged input is rows `4096 t …` of the array the region finds. -/
theorem input_block (c : Dev nD) (t : Fin cfg0.N) (y : S4096x128.Idx) (J : S1048576x128.Idx)
    (hJ0 : (J 0).val = t.val * 4096 + (y 0).val) (hJ1 : (J 1).val = (y 1).val) :
    iblk m c 0 t y = V m c main_v19 J := by
  obtain ⟨e0, e1, -⟩ := block_indices t
  show V m c main_v19 (((cfg0.win 0).blk t).view.emb y) = V m c main_v19 J
  refine congrArg (V m c main_v19) (funext fun a => Fin.ext ?_)
  match a with
  | ⟨0, _⟩ => show win0_0.index t (0 : Fin 2) * 4096 + 1 * (y 0).val = (J 0).val; omega
  | ⟨1, _⟩ => show win0_0.index t (1 : Fin 2) * 128 + 1 * (y 1).val = (J 1).val; omega

/-- The first staged matrix, at every point, is the same-row matrix. -/
theorem rowMask_block (c : Dev nD) (t : Fin cfg0.N) (k l : Fin 128) : iblk m c 1 t (ix2 k l) = sameRow k l := by
  obtain ⟨-, -, e0, e1, -⟩ := block_indices t
  have e : ((cfg0.win 1).blk t).view.emb (ix2 k l) = (ix2 k l : S128x128.Idx) := funext fun a => Fin.ext (by
    match a with
    | ⟨0, _⟩ => show win0_1.index t (0 : Fin 2) * 128 + 1 * k.val = k.val; omega
    | ⟨1, _⟩ => show win0_1.index t (1 : Fin 2) * 128 + 1 * l.val = l.val; omega)
  show V m c main_v7 (((cfg0.win 1).blk t).view.emb (ix2 k l)) = _
  rw [e, V_rowMask, sameLabel_rowLabel]

/-- The second staged matrix, at every point, is the same-column matrix. -/
theorem colMask_block (c : Dev nD) (t : Fin cfg0.N) (k l : Fin 128) : iblk m c 2 t (ix2 k l) = sameCol k l := by
  obtain ⟨-, -, -, -, e0, e1, -⟩ := block_indices t
  have e : ((cfg0.win 2).blk t).view.emb (ix2 k l) = (ix2 k l : S128x128.Idx) := funext fun a => Fin.ext (by
    match a with
    | ⟨0, _⟩ => show win0_2.index t (0 : Fin 2) * 128 + 1 * k.val = k.val; omega
    | ⟨1, _⟩ => show win0_2.index t (1 : Fin 2) * 128 + 1 * l.val = l.val; omega)
  show V m c main_v18 (((cfg0.win 2).blk t).view.emb (ix2 k l)) = _
  rw [e, V_colMask, sameLabel_colLabel]

/-! ## From blocks to the array -/

/-- What a point writes back, against a whole array: enough to compare the buffer's value at each index of the block
    with the array at the array index under it. -/
theorem cut_eq_read (t : Fin cfg0.N) (P : Vec Ideal S4096x128 .f32) (G : FVec Ideal S1048576x128 .f32)
    (h : ∀ y : S4096x128.Idx, P y = G (((cfg0.win 3).blk t).view.emb y)) :
    (cfg0.win 3).cut (grid0.coords t) P = ((cfg0.win 3).blk t).view.read (Elt Ideal) G :=
  funext fun y => h y

/-- What point `t` writes back is block `t` of the packed normalisation of the array the region finds. -/
theorem flushed_eq (c : Dev nD) (t : Fin cfg0.N) :
    (dats m 0 c).flushed 3 t = ((cfg0.win 3).blk t).view.read (Elt Ideal) (packedSinkhorn (V m c main_v19)) := by
  show (cfg0.win 3).cut (grid0.coords t) ((dats m 0 c).after 3 t) = _
  rw [after0_3]
  unfold out0_3
  rw [View.canon_unit_zero zero_offsets]
  simp only [View.ld_unit_zero (S := S4096x128) zero_offsets, View.ld_unit_zero (S := S128x128) zero_offsets]
  obtain ⟨-, -, -, -, -, -, e0, e1⟩ := block_indices t
  refine cut_eq_read t _ _ fun y => ?_
  refine pay_at (iblk m c 0 t) (iblk m c 1 t) (iblk m c 2 t) (V m c main_v19) t.val
    (fun y' J h0 h1 => input_block m c t y' J h0 h1) (rowMask_block m c t) (colMask_block m c t) y
    (((cfg0.win 3).blk t).view.emb y) ?_ ?_
  · show win0_3.index t (0 : Fin 2) * 4096 + 1 * (y 0).val = t.val * 4096 + (y 0).val; omega
  · show win0_3.index t (1 : Fin 2) * 128 + 1 * (y 1).val = (y 1).val; omega

/-- An index of the output array is in point `t`'s block iff each coordinate is in the block's range on its axis. -/
theorem mem_block (t : Fin cfg0.N) (i : S1048576x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v20).slice (win0_3.rect t)).set ↔ _
  rw [View.set_slice_whole, Rect.mem_set_unit]
  exact Iff.rfl

/-- Every row of the output array is in the block of the point that its number divided by 4096 names. -/
theorem covered (i : S1048576x128.Idx) :
    ∃ t : Fin cfg0.N, (cfg0.win 3).flush t = true ∧ i ∈ ((cfg0.win 3).blk t).view.set := by
  have hi0 : (i 0).val < 1048576 := (i 0).isLt
  have hi1 : (i 1).val < 128 := (i 1).isLt
  have hN : cfg0.N = 256 := N_0
  let t : Fin cfg0.N := ⟨(i 0).val / 4096, by rw [hN]; omega⟩
  obtain ⟨-, -, -, -, -, -, e0, e1⟩ := block_indices t
  have ht : t.val = (i 0).val / 4096 := rfl
  refine ⟨t, flush0_3 t, ?_⟩
  rw [mem_block]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 128 ≤ (i 1).val ∧ (i 1).val < win0_3.index t (1 : Fin 2) * 128 + 128; omega

/-- After the region the output array is the packed normalisation of the array the region finds. -/
theorem final (c : Dev nD) : (dats m 0 c).arrAt 3 cfg0.N = packedSinkhorn (V m c main_v19) :=
  (dats m 0 c).arrAt_eq_of_cover 3 (packedSinkhorn (V m c main_v19)) (fun t _ => flushed_eq m c t) covered

/-! ## The line after the region, and the run -/

/-- The program's result, of the argument array: re-laid as rows of lanes, normalised row by row, laid back. -/
def result (x : FVec Ideal S2048x1024x8x8 .f32) : FVec Ideal S2048x1024x8x8 .f32 :=
  shapeCast S2048x1024x8x8 (packedSinkhorn (shapeCast S1048576x128 x shapeCasts_S2048x1024x8x8_S1048576x128))
    shapeCasts_S1048576x128_S2048x1024x8x8

/-- What the line after the region leaves in the result buffer. -/
theorem tail_result (c : Dev nD) :
    Pipeline.afterTail₀ cfgs (dats m) 0 (V0 m) [hostOps1] c main_v21 = result (m ((c.tc : Thread nD τ).loc main_arg0)) := by
  unfold Pipeline.afterTail₀
  show StableHlo.after hostOps1 _ (Proc.devRef .tc main_v21) = _
  after_results
  have hW : Pipeline.withArrays (cfgs 0).spec c (V0 m c) (fun w => (dats m 0 c).arrAt w (cfgs 0).N) (Proc.devRef .tc main_v20)
      = packedSinkhorn (shapeCast S1048576x128 (m ((c.tc : Thread nD τ).loc main_arg0) : FVec Ideal S2048x1024x8x8 .f32)
          shapeCasts_S2048x1024x8x8_S1048576x128) :=
    ((Pipeline.withArrays_arr spec0 launch0.win.arr_inj c _ _ 3).trans (final m c)).trans (congrArg packedSinkhorn (V_packed m c))
  rw [hW]
  rfl

/-- The run, read: every weakly fair execution ends with the result buffer at `result` of the argument as launched, and
    the argument unchanged. -/
theorem run : θ_run defs (onTc (τ := τ) (main (F := Ideal))) ⟨m, fun _ => 0, ρ⟩ fun r => ∀ c : Dev nD,
      r.2.mem ((c.tc : Thread nD τ).loc main_v21) = result (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v21 (Pipeline.mem_restRefs_of main_v21 (by decide) (by decide))).trans (tail_result m c),
        ((h c).2 main_arg0 (Pipeline.mem_restRefs_of main_arg0 (by decide) (by decide))).trans (W_main_arg0 m (dats m) c)⟩)
    (run_main m ρ)

end Cert.KernelIdeal.KValue

end
-- ==== Proof.RefValue.lean ====
/-
  The reference, one 8 × 8 matrix at a time.

  The reference re-lays its argument as 2097152 matrices of 8 × 8, exponentiates, and five times over divides every entry
  by the sum of its row (a sum over the last axis, broadcast back) and then by the sum of its column (a sum over the
  middle axis, broadcast back). Nothing mixes two matrices, so matrix `b` of the result is the plain Sinkhorn
  normalisation (`Cert.Sinkhorn.sinkhorn8`) of matrix `b` of the re-laid argument.
-/
import proofs.«128730_j84765474554153_1_alg».proof.Proof.Gen.ReferenceIdeal.Run
import proofs.«128730_j84765474554153_1_alg».proof.Proof.Sinkhorn
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Value
open Idealize.ShloMosaic Idealize.ShloMosaic.TcCoe Idealize.ShloMosaic.ValueIdx Idealize.SL.Sem Cert.Sinkhorn

/-! ## The two steps and their composition, as the program spells them -/

section Steps
variable {F : FTy → Type} [FloatOps F]

/-- Every entry over the sum of its row: the sum over the last axis, broadcast back along it. -/
def rowStep (A : FVec F S2097152x8x8 .f32) : FVec F S2097152x8x8 .f32 :=
  Host.divf A (broadcastInDim S2097152x8x8 ![0, 1, 2] bcast_S2097152x8x1_S2097152x8x8_0_1_2
    (broadcastInDim S2097152x8x1 ![0, 1] bcast_S2097152x8_S2097152x8x1_0_1
      (Host.reduceAdd A (constant S_ .f32 0x00000000#32) reducesTo_S2097152x8x8_S2097152x8_d2 h_S_)))

/-- Every entry over the sum of its column: the sum over the middle axis, broadcast back along it. -/
def colStep (A : FVec F S2097152x8x8 .f32) : FVec F S2097152x8x8 .f32 :=
  Host.divf A (broadcastInDim S2097152x8x8 ![0, 1, 2] bcast_S2097152x1x8_S2097152x8x8_0_1_2
    (broadcastInDim S2097152x1x8 ![0, 2] bcast_S2097152x8_S2097152x1x8_0_2
      (Host.reduceAdd A (constant S_ .f32 0x00000000#32) reducesTo_S2097152x8x8_S2097152x8_d1 h_S_)))

/-- Five rounds from the exponential. -/
def core (X : FVec F S2097152x8x8 .f32) : FVec F S2097152x8x8 .f32 :=
  (fun A => colStep (rowStep A))^[5] (Host.exp X)

/-- The program's result, of the argument array: re-laid, normalised, laid back. -/
def result (x : FVec F S2048x1024x8x8 .f32) : FVec F S2048x1024x8x8 .f32 :=
  shapeCast S2048x1024x8x8 (core (shapeCast S2097152x8x8 x shapeCasts_S2048x1024x8x8_S2097152x8x8)) shapeCasts_S2097152x8x8_S2048x1024x8x8

end Steps

/-! ## A matrix at a time, at the ideal values -/

/-- Matrix `b` of an array of matrices. -/
def matAt (A : FVec Ideal S2097152x8x8 .f32) (b : Fin 2097152) : Fin 8 → Fin 8 → EReal := fun i j => A (ix3 b i j)

/-- The host's quotient at an index. -/
theorem hostDivf_apply {s : Shape} (A B : FVec Ideal s .f32) (i : s.Idx) : Host.divf A B i = Ideal.div (A i) (B i) := rfl

/-- The host's sum at an index: the initial value's one element plus the exact sum of what reduces there. -/
theorem hostReduceAdd_apply {s t u : Shape} {axes : List (Fin s.rank)} (x : FVec Ideal s .f32) (init : FVec Ideal u .f32)
    (h : s.ReducesTo axes t) (hu : 0 < u.numel) (j : t.Idx) :
    Host.reduceAdd x init h hu j = Ideal.hostReduceAdd h x (init (Shape.Idx.first hu)) j := rfl

/-- The host's exponential at an index. -/
theorem hostExp_apply {s : Shape} (A : FVec Ideal s .f32) (i : s.Idx) : Host.exp A i = Ideal.exp (A i) := rfl

/-- The row step at an entry: the entry over the sum of its row. -/
theorem rowStep_apply (A : FVec Ideal S2097152x8x8 .f32) (b : Fin 2097152) (i j : Fin 8) :
    rowStep A (ix3 b i j) = Ideal.div (A (ix3 b i j)) (∑ j' : Fin 8, A (ix3 b i j')) := by
  have hR : S2097152x8x8.Reduces [2] S2097152x8 := by decide
  unfold rowStep
  rw [hostDivf_apply]
  refine congrArg (Ideal.div (A (ix3 b i j))) ?_
  refine (broadcastInDim_apply _ _ _ (ix3 b i j) (ix3 b i (0 : Fin 1)) fun a => ?_).trans ?_
  · match a with
    | ⟨0, _⟩ => rfl
    | ⟨1, _⟩ => rfl
    | ⟨2, _⟩ => rfl
  refine (broadcastInDim_apply _ _ _ (ix3 b i (0 : Fin 1)) (ix2 b i) fun a => ?_).trans ?_
  · match a with
    | ⟨0, _⟩ => rfl
    | ⟨1, _⟩ => rfl
  rw [hostReduceAdd_apply, Ideal.hostReduceAdd_single _ hR, constant_apply, Ideal.ofBits_zero_f32, zero_add]
  refine Finset.sum_congr rfl fun k _ => congrArg A (funext fun a => Fin.ext ?_)
  match a with
  | ⟨0, _⟩ => rfl
  | ⟨1, _⟩ => rfl
  | ⟨2, _⟩ => rfl

/-- The column step at an entry: the entry over the sum of its column. -/
theorem colStep_apply (A : FVec Ideal S2097152x8x8 .f32) (b : Fin 2097152) (i j : Fin 8) :
    colStep A (ix3 b i j) = Ideal.div (A (ix3 b i j)) (∑ i' : Fin 8, A (ix3 b i' j)) := by
  have hR : S2097152x8x8.Reduces [1] S2097152x8 := by decide
  unfold colStep
  rw [hostDivf_apply]
  refine congrArg (Ideal.div (A (ix3 b i j))) ?_
  refine (broadcastInDim_apply _ _ _ (ix3 b i j) (ix3 b (0 : Fin 1) j) fun a => ?_).trans ?_
  · match a with
    | ⟨0, _⟩ => rfl
    | ⟨1, _⟩ => rfl
    | ⟨2, _⟩ => rfl
  refine (broadcastInDim_apply _ _ _ (ix3 b (0 : Fin 1) j) (ix2 b j) fun a => ?_).trans ?_
  · match a with
    | ⟨0, _⟩ => rfl
    | ⟨1, _⟩ => rfl
  rw [hostReduceAdd_apply, Ideal.hostReduceAdd_single _ hR, constant_apply, Ideal.ofBits_zero_f32, zero_add]
  refine Finset.sum_congr rfl fun k _ => congrArg A (funext fun a => Fin.ext ?_)
  match a with
  | ⟨0, _⟩ => rfl
  | ⟨1, _⟩ => rfl
  | ⟨2, _⟩ => rfl

theorem matAt_rowStep (A : FVec Ideal S2097152x8x8 .f32) (b : Fin 2097152) : matAt (rowStep A) b = rowNorm (matAt A b) := by
  funext i j
  dsimp only [matAt, rowNorm]
  exact rowStep_apply A b i j

theorem matAt_colStep (A : FVec Ideal S2097152x8x8 .f32) (b : Fin 2097152) : matAt (colStep A) b = colNorm (matAt A b) := by
  funext i j
  dsimp only [matAt, colNorm]
  exact colStep_apply A b i j

/-- Matrix `b` of the exponential is the exponential of matrix `b`. -/
theorem matAt_exp (X : FVec Ideal S2097152x8x8 .f32) (b : Fin 2097152) :
    matAt (Host.exp X) b = fun i j => Ideal.exp (matAt X b i j) := by
  funext i j
  dsimp only [matAt]
  exact hostExp_apply X (ix3 b i j)

/-- Matrix `b` of the normalised array is the plain Sinkhorn normalisation of matrix `b`. -/
theorem matAt_core (X : FVec Ideal S2097152x8x8 .f32) (b : Fin 2097152) : matAt (core X) b = sinkhorn8 (matAt X b) := by
  have hs : Function.Semiconj (fun A => matAt A b) (fun A => colStep (rowStep A)) (fun M => colNorm (rowNorm M)) :=
    fun A => by dsimp only; rw [matAt_colStep, matAt_rowStep]
  unfold core sinkhorn8
  rw [← matAt_exp X b]
  exact (hs.iterate_right 5) (Host.exp X)

/-- The normalised array at an entry: the plain Sinkhorn normalisation of the entry's matrix, at the entry. -/
theorem core_apply (X : FVec Ideal S2097152x8x8 .f32) (b : Fin 2097152) (i j : Fin 8) :
    core X (ix3 b i j) = sinkhorn8 (fun i' j' => X (ix3 b i' j')) i j := by
  have h := congrFun (congrFun (matAt_core X b) i) j
  dsimp only [matAt] at h
  exact h

/-! ## The run -/

/-- The generated run's result term is `result` of the launch contents of the argument. -/
theorem run_result_eq {F : FTy → Type} [FloatOps F] (L : Valuation τ sig (Elt F)) :
    shapeCast S2048x1024x8x8 (Host.divf (res_main_v37 L) (broadcastInDim S2097152x8x8 ![0, 1, 2] bcast_S2097152x1x8_S2097152x8x8_0_1_2 (broadcastInDim S2097152x1x8 ![0, 2] bcast_S2097152x8_S2097152x1x8_0_2 (Host.reduceAdd (res_main_v37 L) (constant S_ .f32 0x00000000#32) reducesTo_S2097152x8x8_S2097152x8_d1 h_S_)))) shapeCasts_S2097152x8x8_S2048x1024x8x8
      = result (L (Proc.devRef .tc main_arg0)) := rfl

end Cert.ReferenceIdeal.RefValue

end
-- ==== Proof.Bridge.lean ====
/-
  The two programs compute one function of the argument.

  The kernel's program re-lays the argument as rows of 128 lanes, normalises every row by the packed Sinkhorn
  normalisation and lays the rows back; the reference re-lays it as 8 × 8 matrices, normalises every matrix by the plain
  one and lays the matrices back. The packed normalisation of the rows is the re-laying of the plain normalisation of the
  matrices (`Cert.Sinkhorn.packed_eq`), and re-layings compose, so the two results are the same array.
-/
import proofs.«128730_j84765474554153_1_alg».proof.Proof.KernelValue
import proofs.«128730_j84765474554153_1_alg».proof.Proof.RefValue
import proofs.«128730_j84765474554153_1_alg».proof.Proof.Packing

noncomputable section

namespace Cert.Proof.Bridge

open Idealize.ShloMosaic Idealize.ShloMosaic.ValueIdx Cert.Sinkhorn

theorem results_agree (x : FVec Ideal Cert.KernelIdeal.S2048x1024x8x8 .f32) :
    Cert.KernelIdeal.KValue.result x = Cert.ReferenceIdeal.RefValue.result x := by
  unfold Cert.KernelIdeal.KValue.result Cert.ReferenceIdeal.RefValue.result
  have h23 : Rows.ShapeCasts Mats := by decide
  have h32 : Mats.ShapeCasts Rows := by decide
  rw [packed_eq (Cert.ReferenceIdeal.RefValue.core (F := Ideal)) Cert.ReferenceIdeal.RefValue.core_apply _ h23 h32,
    shapeCast_shapeCast' x _ h23 Cert.ReferenceIdeal.Gen.shapeCasts_S2048x1024x8x8_S2097152x8x8,
    shapeCast_shapeCast' _ h32 _ Cert.ReferenceIdeal.Gen.shapeCasts_S2097152x8x8_S2048x1024x8x8]

end Cert.Proof.Bridge

end
-- ==== Proof.lean ====
/-
  Sinkhorn normalisation of 2097152 matrices of 8 × 8: a kernel that packs two matrices into each row of 128 lanes and takes
  the row and column sums as products with two 0/1 matrices, against the plain sums of the reference.

  Both programs exponentiate the argument and then, five times over, divide every entry by the sum of its row and then by the
  sum of its column. The kernel's sums are products of a 128-lane row with the same-row and the same-column matrix; on the
  extended reals a product with a 0/1 matrix is exactly the sum over the selected lanes, so each packed step is the plain
  step on the two matrices the row holds, and the two results are re-layings of one array (Proof/Bridge.lean). The frames
  of the two kernel programs are the generated ones; the reference's frame is its generated run with the result dropped;
  no rewrite was made when the kernel was idealized, so there is nothing to preserve.
-/
import proofs.«128730_j84765474554153_1_alg».proof.Defs
import proofs.«128730_j84765474554153_1_alg».proof.Proof.Gen.Kernel
import proofs.«128730_j84765474554153_1_alg».proof.Proof.Gen.Kernel.Skeleton
import proofs.«128730_j84765474554153_1_alg».proof.Proof.Gen.Kernel.Launch
import proofs.«128730_j84765474554153_1_alg».proof.Proof.Gen.Kernel.Points
import proofs.«128730_j84765474554153_1_alg».proof.Proof.Gen.Kernel.Frame
import proofs.«128730_j84765474554153_1_alg».proof.Proof.Gen.KernelIdeal
import proofs.«128730_j84765474554153_1_alg».proof.Proof.Gen.KernelIdeal.Skeleton
import proofs.«128730_j84765474554153_1_alg».proof.Proof.Gen.KernelIdeal.Launch
import proofs.«128730_j84765474554153_1_alg».proof.Proof.Gen.KernelIdeal.Points
import proofs.«128730_j84765474554153_1_alg».proof.Proof.Gen.KernelIdeal.Frame
import proofs.«128730_j84765474554153_1_alg».proof.Proof.Gen.ReferenceIdeal
import proofs.«128730_j84765474554153_1_alg».proof.Proof.Gen.ReferenceIdeal.Run
import proofs.«128730_j84765474554153_1_alg».proof.Proof.Gen.Pre_finite_inputs
import proofs.«128730_j84765474554153_1_alg».proof.Proof.KernelValue
import proofs.«128730_j84765474554153_1_alg».proof.Proof.RefValue
import proofs.«128730_j84765474554153_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the argument, both programs end with their result buffers at one array: the kernel's at the
    packed normalisation laid back, the reference's at the plain one laid back, which are equal. -/
theorem algebraic : Cert.algebraic_KernelIdeal_ReferenceIdeal := by
  intro m ρ m' ρ' _ hagree
  refine ⟨fun c => Cert.KernelIdeal.KValue.result (m ((c.tc : Thread Cert.KernelIdeal.nD Cert.KernelIdeal.τ).loc Cert.KernelIdeal.main_arg0)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.run_result_eq (StableHlo.launchContents m' c)).trans ?_
  have e : StableHlo.launchContents m' c (Proc.devRef .tc Cert.ReferenceIdeal.main_arg0)
      = m ((c.tc : Thread Cert.KernelIdeal.nD Cert.KernelIdeal.τ).loc Cert.KernelIdeal.main_arg0) := hagree c
  rw [e]
  exact (Cert.Proof.Bridge.results_agree _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
